-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S256x128 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S5000x256 : Shape := ⟨2, ![5000, 256]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 65
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000x128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000x128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .i1⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.GraphConv.lean ====
/-
  A graph convolution layer as one function of its inputs.

  A graph on 100000 nodes is given by 1600000 directed edges (two rows of node numbers: sources, targets); every node
  also gets a loop to itself, 1700000 edges in all. A node's degree counts the edges that end in it; an edge from s to t
  carries the weight d(s)^(-1/2) · d(t)^(-1/2), a node of degree zero counting as weight zero. The layer multiplies the node
  features by a weight matrix, sums into every node the weighted feature rows of the edges that end in it, adds a
  per-channel bias and applies a rectifier with a per-channel slope on the negative side.

  Everything after the matrix product is written here once, as functions of the product `h` and the edge list `e`,
  over the host operations as they are printed: a node number below zero is read from the end of the table, an edge whose
  target is no node of the graph is dropped by the sums (the scatter's own convention). The shapes' side conditions and the
  gather / scatter dimension records are parameters, so that two programs that print the same operations under their own
  names meet in the same terms.
-/
import Idealize.ShloMosaic.PureOps

noncomputable section

namespace Cert.GraphConv

open Idealize.ShloMosaic

/-- The edge list, one row of it, that row as a vector; the nodes; all edges with the loops; a column of them; a feature
    row per edge; a feature row per node; a scalar; one row of channels; the channels. -/
abbrev SE : Shape := ⟨2, ![2, 1600000]⟩
abbrev SE1 : Shape := ⟨2, ![1, 1600000]⟩
abbrev SEv : Shape := ⟨1, ![1600000]⟩
abbrev SN : Shape := ⟨1, ![100000]⟩
abbrev SA : Shape := ⟨1, ![1700000]⟩
abbrev SA1 : Shape := ⟨2, ![1700000, 1]⟩
abbrev SAF : Shape := ⟨2, ![1700000, 128]⟩
abbrev SNF : Shape := ⟨2, ![100000, 128]⟩
abbrev S0 : Shape := ⟨0, ![]⟩
abbrev SR : Shape := ⟨2, ![1, 128]⟩
abbrev SC : Shape := ⟨1, ![128]⟩

/-- The side conditions of the layout operations between the product and the bias. -/
structure Conds : Prop where
  slice0 : SE.Slices ![0, 0] SE1
  slice1 : SE.Slices ![1, 0] SE1
  cast : SE1.ShapeCasts SEv
  cat : Shape.Concatenates [SEv, SN] SA 0
  b0A : S0.BroadcastsInDim SA (![] : Fin 0 → Fin SA.rank)
  b0N : S0.BroadcastsInDim SN (![] : Fin 0 → Fin SN.rank)
  bA1 : SA.BroadcastsInDim SA1 (![0] : Fin 1 → Fin SA1.rank)
  bAF : SA1.BroadcastsInDim SAF (![0, 1] : Fin 2 → Fin SAF.rank)
  b0NF : S0.BroadcastsInDim SNF (![] : Fin 0 → Fin SNF.rank)

variable {F : FTy → Type} [FloatOps F]
variable (H : Conds)
  (scN : ScatterDims SN SA1 SA) (gaN : GatherDims SN SA1 SA)
  (gaF : GatherDims SNF SA1 SAF) (scF : ScatterDims SNF SA1 SAF)

/-- Every edge's source: the first row of the edge list, then every node for its loop. -/
def src (e : IVec SE 32) : IVec SA 32 :=
  concatenate SA 0 [⟨SEv, (shapeCast _ (extractStridedSlice SE1 ![0, 0] e H.slice0) H.cast)⟩, ⟨SN, (iotaInDim SN 32 0)⟩] H.cat

/-- Every edge's target: the second row, then every node. -/
def dst (e : IVec SE 32) : IVec SA 32 :=
  concatenate SA 0 [⟨SEv, (shapeCast _ (extractStridedSlice SE1 ![1, 0] e H.slice1) H.cast)⟩, ⟨SN, (iotaInDim SN 32 0)⟩] H.cat

/-- A node number read as a table index: a negative one counts from the end. -/
def fromEnd (v : IVec SA 32) : IVec SA 32 :=
  select (cmpi .slt v (broadcastInDim SA ![] H.b0A (constantI S0 32 0#32))) (addi v (broadcastInDim SA ![] H.b0A (constantI S0 32 100000#32))) v

/-- A node's degree: one for every edge that ends in it. -/
def degree (e : IVec SE 32) : FVec F SN .f32 :=
  Host.scatterAdd scN (broadcastInDim SN ![] H.b0N (constant S0 .f32 0x00000000#32)) (broadcastInDim SA1 ![0] H.bA1 (dst H e)) (broadcastInDim SA ![] H.b0A (constant S0 .f32 0x3F800000#32))

/-- d^(-1/2) for a node of positive degree, zero otherwise. -/
def invSqrtDegree (e : IVec SE 32) : FVec F SN .f32 :=
  select (cmpf (F := F) .ogt (degree H scN e) (broadcastInDim SN ![] H.b0N (constant S0 .f32 0x00000000#32))) (Host.rsqrt (degree H scN e)) (broadcastInDim SN ![] H.b0N (id (constant S0 .f32 0x00000000#32)))

/-- An edge's weight: d(source)^(-1/2) · d(target)^(-1/2). -/
def edgeWeight (e : IVec SE 32) : FVec F SA .f32 :=
  mulf (Host.gather gaN (invSqrtDegree H scN e) (broadcastInDim SA1 ![0] H.bA1 (fromEnd H (src H e))))
    (Host.gather gaN (invSqrtDegree H scN e) (broadcastInDim SA1 ![0] H.bA1 (fromEnd H (dst H e))))

/-- The aggregation: into every node, the sum over the edges ending in it of the source's feature row times the
    edge's weight. -/
def aggregate (h : FVec F SNF .f32) (e : IVec SE 32) : FVec F SNF .f32 :=
  Host.scatterAdd scF (broadcastInDim SNF ![] H.b0NF (constant S0 .f32 0x00000000#32)) (broadcastInDim SA1 ![0] H.bA1 (dst H e))
    (mulf (Host.gather gaF h (broadcastInDim SA1 ![0] H.bA1 (fromEnd H (src H e))))
      (broadcastInDim SAF ![0, 1] H.bAF (broadcastInDim SA1 ![0] H.bA1 (edgeWeight H scN gaN e))))

/-- Bias, then the rectifier with a slope per channel: z where z > 0, slope · z elsewhere, z the sum with the bias.
    The host's spelling: the two channel vectors broadcast to a row and then down the nodes. -/
def biasSlope (hb1 : SC.BroadcastsInDim SR (![1] : Fin 1 → Fin SR.rank)) (hb2 : SR.BroadcastsInDim SNF (![0, 1] : Fin 2 → Fin SNF.rank))
    (a : FVec F SNF .f32) (bias slope : FVec F SC .f32) : FVec F SNF .f32 :=
  select (cmpf (F := F) .ogt (addf a (broadcastInDim SNF ![0, 1] hb2 (broadcastInDim SR ![1] hb1 bias))) (broadcastInDim SNF ![] H.b0NF (constant S0 .f32 0x00000000#32)))
    (addf a (broadcastInDim SNF ![0, 1] hb2 (broadcastInDim SR ![1] hb1 bias)))
    (mulf (broadcastInDim SNF ![0, 1] hb2 (broadcastInDim SR ![1] hb1 slope)) (addf a (broadcastInDim SNF ![0, 1] hb2 (broadcastInDim SR ![1] hb1 bias))))

end Cert.GraphConv

end
-- ==== Proof.Between.lean ====
/-
  Between the two kernels: from the matrix product to the aggregation.

  The host operations between the first kernel (the product of the node features with the weights) and the second (the
  bias and the slope) compute, from the product and the edge list, the layer's aggregation; and they lay the bias and the
  slope vectors out as one-row matrices. Stated over any buffer contents the first stretch is entered from.
-/
import proofs.«161642_j10007273799959_1_alg».proof.Proof.Gen.KernelIdeal.Launch
import proofs.«161642_j10007273799959_1_alg».proof.Proof.GraphConv
import Idealize.ShloMosaic.Lib.StableHlo.Run

noncomputable section

namespace Cert.KernelIdeal.Between

open Cert.KernelIdeal Cert.KernelIdeal.Gen Idealize.ShloMosaic Idealize.ShloMosaic.TcCoe Idealize.SL.Sem Idealize.ShloMosaic.StableHlo

variable {F : FTy → Type} [FloatOps F]

/-- The side conditions of the layer's layout operations, as the kernel's program states them. -/
theorem conds : Cert.GraphConv.Conds :=
  ⟨slices_S2x1600000_S1x1600000_0_0, slices_S2x1600000_S1x1600000_1_0, shapeCasts_S1x1600000_S1600000,
    concatenates_S1600000_S100000_S1700000_d0, bcast_S_S1700000, bcast_S_S100000, bcast_S1700000_S1700000x1_0,
    bcast_S1700000x1_S1700000x128_0_1, bcast_S_S100000x128⟩

/-- The buffer contents after the three host stretches. -/
abbrev afterHost (W : Valuation τ sig (Elt F)) : Valuation τ sig (Elt F) :=
  StableHlo.after hostOps1_2 (StableHlo.after hostOps1_1 (StableHlo.after hostOps1 W))

set_option maxRecDepth 8192 in
set_option maxHeartbeats 4000000 in
/-- What the second kernel's first operand holds: the aggregation of the first kernel's result over the edge list. -/
theorem aggregate_eq (W : Valuation τ sig (Elt F)) :
    afterHost W (Proc.devRef .tc main_v43)
      = Cert.GraphConv.aggregate conds scatter_S100000_S1700000x1_S1700000_n_0_0_1 gather_S100000_S1700000x1_S1700000_n_0_n_n_0_1_1
          gather_S100000x128_S1700000x1_S1700000x128_1_0_n_n_0_1_1128 scatter_S100000x128_S1700000x1_S1700000x128_1_0_0_1
          (W (Proc.devRef .tc main_v0)) (W (Proc.devRef .tc main_arg1)) := by
  after_results_simp <;> rfl

/-- The bias as a one-row matrix. -/
theorem biasRow_eq (W : Valuation τ sig (Elt F)) :
    afterHost W (Proc.devRef .tc main_v44) = shapeCast S1x128 (W (Proc.devRef .tc main_arg3)) shapeCasts_S128_S1x128 := by
  after_results_simp <;> rfl

/-- The slope as a one-row matrix. -/
theorem slopeRow_eq (W : Valuation τ sig (Elt F)) :
    afterHost W (Proc.devRef .tc main_v45) = shapeCast S1x128 (W (Proc.devRef .tc main_arg4)) shapeCasts_S128_S1x128 := by
  after_results_simp <;> rfl

end Cert.KernelIdeal.Between

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.MatProd.lean ====
/-
  The product of the node features with the weights, at one entry.

  At node p and channel q it is the sum over the 256 input features k of x[p, k] · w[k, q]. The host's dot_general
  with the plain dimension numbers (contract the left operand's axis 1 with the right operand's axis 0) is this function.
-/
import proofs.«161642_j10007273799959_1_alg».proof.Proof.LibPlainDot
import Idealize.ShloMosaic.PureOps.Ideal
import Idealize.ShloMosaic.Lib.ValueIdx

noncomputable section

open scoped BigOperators

namespace Cert.GraphConv

open Idealize.ShloMosaic Idealize.ShloMosaic.ValueIdx

/-- x · w, entry by entry. -/
def matProd (x : FVec Ideal ⟨2, ![100000, 256]⟩ .f32) (w : FVec Ideal ⟨2, ![256, 128]⟩ .f32) : FVec Ideal ⟨2, ![100000, 128]⟩ .f32 :=
  fun i => ∑ k : Fin 256, x (ix2 (i 0) k) * w (ix2 k (i 1))

theorem matProd_apply (x : FVec Ideal ⟨2, ![100000, 256]⟩ .f32) (w : FVec Ideal ⟨2, ![256, 128]⟩ .f32) (p : Fin 100000) (q : Fin 128) :
    matProd x w (ix2 p q) = ∑ k : Fin 256, x (ix2 p k) * w (ix2 k q) := rfl

/-- The host's product is it. -/
theorem hostProduct_eq (D : DotDims ⟨2, ![100000, 256]⟩ ⟨2, ![256, 128]⟩ ⟨2, ![100000, 128]⟩) (hD : D = DotDims.plain 100000 256 128)
    (x : FVec Ideal ⟨2, ![100000, 256]⟩ .f32) (w : FVec Ideal ⟨2, ![256, 128]⟩ .f32) :
    Host.dotGeneral D none x w = matProd x w := by
  subst hD
  funext i
  obtain ⟨p, q, rfl⟩ : ∃ (p : Fin 100000) (q : Fin 128), i = ix2 p q := ⟨i 0, i 1, eq_ix2 i⟩
  exact Cert.PlainDot.dotGeneral_apply none .single x w p q

end Cert.GraphConv

end
-- ==== Proof.ProductRegion.lean ====
/-
  The first kernel: the product of the node features with the weights, 5000 nodes at a time.

  Grid point t takes rows 5000·t … 5000·t + 4999 of the features (all 256 of them) and the whole weight matrix, and
  writes the same rows of the product: at row p of the block and channel q the sum over k of x[5000·t + p, k] · w[k, q]
  (on the extended reals the narrowing of the two operands to a shorter float format changes nothing, and the product
  into a zero accumulator is the plain sum). The twenty blocks tile the array, so after the run the result array holds
  the product of the two arrays the kernel found.
-/
import proofs.«161642_j10007273799959_1_alg».proof.Proof.Gen.KernelIdeal.Frame
import proofs.«161642_j10007273799959_1_alg».proof.Proof.MatProd
import proofs.«161642_j10007273799959_1_alg».proof.Proof.LibPlainDot
import Idealize.ShloMosaic.Lib.Pipeline.Value
import Idealize.ShloMosaic.Lib.ValueIdx

set_option maxRecDepth 16384

noncomputable section

open scoped BigOperators

namespace Cert.KernelIdeal.ProductRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body at row p, channel q of its block: the sum over k of the features block's (p, k) times the weights' (k, q). -/
theorem body_apply (x0 : FVec Ideal S5000x256 .f32) (x1 : FVec Ideal S256x128 .f32) (p : Fin 5000) (q : Fin 128) :
    k0_pay1 x0 x1 (ix2 p q) = ∑ k : Fin 256, x0 (ix2 p k) * x1 (ix2 k q) := by
  unfold k0_pay1
  exact Cert.PlainDot.matmul_zero_apply (M := 5000) (K := 256) (N := 128) none
    (truncf .bf16 x0 bitsLt_bf16_f32) (truncf .bf16 x1 bitsLt_bf16_f32) p q

/-- Where the windows sit at point t: the features' and the product's block is block t of the rows, the weights'
    the only one. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

/-- The features' block at point t, row p: row 5000·t + p of the array. -/
theorem features_read (c : Dev nD) (t : Fin cfg0.N) (p : Fin 5000) (k : Fin 256) (P : Fin 100000) (hP : P.val = t.val * 5000 + p.val) :
    iblk0 V c 0 t (ix2 p k) = V c main_arg0 (ix2 P k) := by
  show V c main_arg0 (((cfg0.win 0).blk t).view.emb (ix2 p k)) = V c main_arg0 (ix2 P k)
  obtain ⟨e0, e1, -⟩ := blockIndex t
  refine congrArg _ (funext fun a => Fin.ext ?_)
  match a with
  | ⟨0, _⟩ => show win0_0.index t (0 : Fin 2) * 5000 + 1 * p.val = P.val; omega
  | ⟨1, _⟩ => show win0_0.index t (1 : Fin 2) * 256 + 1 * k.val = k.val; omega

/-- The weights' block is the matrix. -/
theorem weights_read (c : Dev nD) (t : Fin cfg0.N) (k : Fin 256) (q : Fin 128) :
    iblk0 V c 1 t (ix2 k q) = V c main_arg2 (ix2 k q) := by
  show V c main_arg2 (((cfg0.win 1).blk t).view.emb (ix2 k q)) = V c main_arg2 (ix2 k q)
  obtain ⟨-, -, e2, e3, -⟩ := blockIndex t
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- What point t writes back is block t of the product of the two arrays the kernel finds. -/
theorem flushed_eq (c : Dev nD) (t : Fin cfg0.N) :
    (dat0 V c).flushed 2 t
      = ((cfg0.win 2).blk t).view.read (Elt Ideal) (Cert.GraphConv.matProd (V c main_arg0) (V c main_arg2)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  funext j
  obtain ⟨p, q, rfl⟩ : ∃ (p : Fin 5000) (q : Fin 128), j = ix2 p q := ⟨j 0, j 1, eq_ix2 j⟩
  have ht := point_lt t
  have hlt : t.val * 5000 + p.val < 100000 := by have := p.isLt; omega
  show k0_pay1 (iblk0 V c 0 t) (iblk0 V c 1 t) (ix2 p q)
    = Cert.GraphConv.matProd (V c main_arg0) (V c main_arg2) (((cfg0.win 2).blk t).view.emb (ix2 p q))
  have hemb : ((cfg0.win 2).blk t).view.emb (ix2 p q) = ix2 (⟨t.val * 5000 + p.val, hlt⟩ : Fin 100000) q := by
    obtain ⟨-, -, -, -, e4, e5⟩ := blockIndex t
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb, Cert.GraphConv.matProd_apply]
  refine (body_apply _ _ p q).trans ?_
  refine Finset.sum_congr rfl fun k _ => ?_
  rw [features_read V c t p k ⟨_, hlt⟩ rfl, weights_read V c t k q]

/-- An index of the product array is in point t's block iff each coordinate is in the block's range. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r lies in block r / 5000: the blocks cover the product array. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have htlt : (i 0).val / 5000 < cfg0.N := by rw [hN]; omega
  refine ⟨⟨(i 0).val / 5000, htlt⟩, flush0_2 _, ?_⟩
  rw [mem_block]
  obtain ⟨-, -, -, -, e4, e5⟩ := blockIndex ⟨(i 0).val / 5000, htlt⟩
  intro a
  match a with
  | ⟨0, _⟩ =>
    show win0_2.index ⟨(i 0).val / 5000, htlt⟩ (0 : Fin 2) * 5000 ≤ (i 0).val ∧ (i 0).val < win0_2.index ⟨(i 0).val / 5000, htlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, htlt⟩ (1 : Fin 2) * 128 ≤ (i 1).val ∧ (i 1).val < win0_2.index ⟨(i 0).val / 5000, htlt⟩ (1 : Fin 2) * 128 + 128
    rw [e5]; omega

/-- After the run the product array is the product of the two arrays the kernel found. -/
theorem result_eq (c : Dev nD) :
    (dat0 V c).arrAt 2 cfg0.N = Cert.GraphConv.matProd (V c main_arg0) (V c main_arg2) :=
  (dat0 V c).arrAt_eq_of_cover 2 _ (fun t _ => flushed_eq V c t) covered

end Cert.KernelIdeal.ProductRegion

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.BiasSlope.lean ====
/-
  The bias and the rectifier with a per-channel slope, at one entry.

  At node p and channel q the layer holds z where z > 0 and slope[q] · z elsewhere, z = a[p, q] + bias[q]: the two
  channel vectors are broadcast to a row and down the nodes, the threshold zero is a scalar broadcast, and the sum, the
  compare, the product and the choice are entry by entry.
-/
import proofs.«161642_j10007273799959_1_alg».proof.Proof.GraphConv
import proofs.«161642_j10007273799959_1_alg».proof.Proof.LibRowBias
import Idealize.ShloMosaic.PureOps.Ideal
import Idealize.ShloMosaic.Lib.ValueIdx

noncomputable section

namespace Cert.GraphConv

open Idealize.ShloMosaic Idealize.ShloMosaic.ValueIdx

/-- The layer's last step at (p, q), on the extended reals. -/
theorem biasSlope_apply (H : Conds) (hb1 : SC.BroadcastsInDim SR (![1] : Fin 1 → Fin SR.rank))
    (hb2 : SR.BroadcastsInDim SNF (![0, 1] : Fin 2 → Fin SNF.rank))
    (a : FVec Ideal SNF .f32) (bias slope : FVec Ideal SC .f32) (p : Fin 100000) (q : Fin 128) :
    biasSlope H hb1 hb2 a bias slope (ix2 p q)
      = Scalar.select (FloatOps.cmpf .ogt (a (ix2 p q) + bias (ix1 q)) (Ideal.ofBits .f32 0x00000000#32))
          (a (ix2 p q) + bias (ix1 q)) (slope (ix1 q) * (a (ix2 p q) + bias (ix1 q))) := by
  unfold biasSlope
  rw [select_apply, cmpf_apply, addf_apply, mulf_apply, addf_apply, Cert.RowBias.hostRows_apply, Cert.RowBias.hostRows_apply,
    Cert.RowBias.splat_apply]
  rfl

end Cert.GraphConv

end
-- ==== Proof.SlopeRegion.lean ====
/-
  The second kernel: bias and slope, 5000 nodes at a time.

  Grid point t takes rows 5000·t … 5000·t + 4999 of the aggregated features (all 128 channels) and the whole bias and
  slope rows, and writes the same rows of the result: at row p of the block and channel q, z where z > 0 and
  slope[q] · z elsewhere, z = a[5000·t + p, q] + bias[q]. The twenty blocks tile the array, so after the run the result
  array holds the layer's last step of the aggregated features, whatever those are when the kernel is entered.
-/
import proofs.«161642_j10007273799959_1_alg».proof.Proof.Gen.KernelIdeal.Frame
import proofs.«161642_j10007273799959_1_alg».proof.Proof.BiasSlope
import proofs.«161642_j10007273799959_1_alg».proof.Proof.LibRowBias
import Idealize.ShloMosaic.Lib.Pipeline.Value
import Idealize.ShloMosaic.Lib.ValueIdx

set_option maxRecDepth 16384

noncomputable section

namespace Cert.KernelIdeal.SlopeRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body at row p, channel q of its block: the block's entry plus the bias row's, compared with zero, kept or
    multiplied by the slope row's. -/
theorem body_apply (x0 : FVec Ideal S5000x128 .f32) (x1 x2 : FVec Ideal S1x128 .f32) (p : Fin 5000) (q : Fin 128) :
    k1_pay1 x0 x1 x2 (ix2 p q)
      = Scalar.select (FloatOps.cmpf .ogt (x0 (ix2 p q) + x1 (ix2 (0 : Fin 1) q)) (Ideal.ofBits .f32 0x00000000#32))
          (x0 (ix2 p q) + x1 (ix2 (0 : Fin 1) q)) (x2 (ix2 (0 : Fin 1) q) * (x0 (ix2 p q) + x1 (ix2 (0 : Fin 1) q))) := by
  unfold k1_pay1
  rw [shapeCast_self, shapeCast_self, shapeCast_self, select_apply, cmpf_apply, mulf_apply, addf_apply,
    Cert.RowBias.rows_apply, Cert.RowBias.rows_apply]
  rfl

/-- Where the windows sit at point t: the features' and the result's block is block t of the rows, the two rows'
    the only one. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 20 := lt_of_lt_of_eq t.isLt N_1

/-- The features' block at point t, row p: row 5000·t + p of the array. -/
theorem features_read (c : Dev nD) (t : Fin cfg1.N) (p : Fin 5000) (q : Fin 128) (P : Fin 100000) (hP : P.val = t.val * 5000 + p.val) :
    iblk1 V c 0 t (ix2 p q) = V c main_v43 (ix2 P q) := by
  show V c main_v43 (((cfg1.win 0).blk t).view.emb (ix2 p q)) = V c main_v43 (ix2 P q)
  obtain ⟨e0, e1, -⟩ := blockIndex t
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * q.val = q.val; omega

/-- The bias row's block is the row. -/
theorem biasRow_read (c : Dev nD) (t : Fin cfg1.N) (q : Fin 128) :
    iblk1 V c 1 t (ix2 (0 : Fin 1) q) = V c main_v44 (ix2 (0 : Fin 1) q) := by
  show V c main_v44 (((cfg1.win 1).blk t).view.emb (ix2 (0 : Fin 1) q)) = V c main_v44 (ix2 (0 : Fin 1) q)
  obtain ⟨-, -, e2, e3, -⟩ := blockIndex t
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The slope row's block is the row. -/
theorem slopeRow_read (c : Dev nD) (t : Fin cfg1.N) (q : Fin 128) :
    iblk1 V c 2 t (ix2 (0 : Fin 1) q) = V c main_v45 (ix2 (0 : Fin 1) q) := by
  show V c main_v45 (((cfg1.win 2).blk t).view.emb (ix2 (0 : Fin 1) q)) = V c main_v45 (ix2 (0 : Fin 1) q)
  obtain ⟨-, -, -, -, e4, e5, -⟩ := blockIndex t
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

variable (H : Cert.GraphConv.Conds) (hb1 : Cert.GraphConv.SC.BroadcastsInDim Cert.GraphConv.SR (![1] : Fin 1 → Fin Cert.GraphConv.SR.rank))
  (hb2 : Cert.GraphConv.SR.BroadcastsInDim Cert.GraphConv.SNF (![0, 1] : Fin 2 → Fin Cert.GraphConv.SNF.rank))

/-- What point t writes back is block t of the layer's last step of the features the kernel finds, when the two rows it
    finds are the bias and slope vectors laid out as rows. -/
theorem flushed_eq (c : Dev nD) (bias slope : FVec Ideal S128 .f32)
    (hb : V c main_v44 = shapeCast S1x128 bias shapeCasts_S128_S1x128) (hs : V c main_v45 = shapeCast S1x128 slope shapeCasts_S128_S1x128)
    (t : Fin cfg1.N) :
    (dat1 V c).flushed 3 t
      = ((cfg1.win 3).blk t).view.read (Elt Ideal) (Cert.GraphConv.biasSlope H hb1 hb2 (V c main_v43) bias slope) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin]
  funext j
  obtain ⟨p, q, rfl⟩ : ∃ (p : Fin 5000) (q : Fin 128), j = ix2 p q := ⟨j 0, j 1, eq_ix2 j⟩
  have ht := point_lt t
  have hlt : t.val * 5000 + p.val < 100000 := by have := p.isLt; omega
  show k1_pay1 (iblk1 V c 0 t) (iblk1 V c 1 t) (iblk1 V c 2 t) (ix2 p q)
    = Cert.GraphConv.biasSlope H hb1 hb2 (V c main_v43) bias slope (((cfg1.win 3).blk t).view.emb (ix2 p q))
  have hemb : ((cfg1.win 3).blk t).view.emb (ix2 p q) = ix2 (⟨t.val * 5000 + p.val, hlt⟩ : Fin 100000) q := by
    obtain ⟨-, -, -, -, -, -, e6, e7⟩ := blockIndex t
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hemb, Cert.GraphConv.biasSlope_apply]
  refine (body_apply _ _ _ p q).trans ?_
  rw [features_read V c t p q ⟨_, hlt⟩ rfl, biasRow_read V c t q, slopeRow_read V c t q, hb, hs,
    Cert.RowBias.ofVec_apply, Cert.RowBias.ofVec_apply]

/-- An index of the result array is in point t's block iff each coordinate is in the block's range. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- Row r lies in block r / 5000: the blocks cover the result array. -/
theorem covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have htlt : (i 0).val / 5000 < cfg1.N := by rw [hN]; omega
  refine ⟨⟨(i 0).val / 5000, htlt⟩, flush1_3 _, ?_⟩
  rw [mem_block]
  obtain ⟨-, -, -, -, -, -, e6, e7⟩ := blockIndex ⟨(i 0).val / 5000, htlt⟩
  intro a
  match a with
  | ⟨0, _⟩ =>
    show win1_3.index ⟨(i 0).val / 5000, htlt⟩ (0 : Fin 2) * 5000 ≤ (i 0).val ∧ (i 0).val < win1_3.index ⟨(i 0).val / 5000, htlt⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, htlt⟩ (1 : Fin 2) * 128 ≤ (i 1).val ∧ (i 1).val < win1_3.index ⟨(i 0).val / 5000, htlt⟩ (1 : Fin 2) * 128 + 128
    rw [e7]; omega

/-- After the run the result array is the layer's last step of the features the kernel found. -/
theorem result_eq (c : Dev nD) (bias slope : FVec Ideal S128 .f32)
    (hb : V c main_v44 = shapeCast S1x128 bias shapeCasts_S128_S1x128) (hs : V c main_v45 = shapeCast S1x128 slope shapeCasts_S128_S1x128) :
    (dat1 V c).arrAt 3 cfg1.N = Cert.GraphConv.biasSlope H hb1 hb2 (V c main_v43) bias slope :=
  (dat1 V c).arrAt_eq_of_cover 3 _ (fun t _ => flushed_eq V H hb1 hb2 c bias slope hb hs t) covered

end Cert.KernelIdeal.SlopeRegion

end
-- ==== Proof.Layer.lean ====
/-
  What the kernel's program leaves in its result buffer: the graph convolution layer of its arguments.

  The run goes through five stretches: the first kernel (the product of the node features with the weights), three
  stretches of host operations (the aggregation over the edge list, and the bias and slope laid out as rows), the second
  kernel (bias and slope). Reading the result buffer back through them: the second kernel leaves the layer's last step of
  the aggregation it finds and of the two rows; the host stretches leave the aggregation of the first kernel's result
  and the two vectors as rows; the first kernel leaves the product of the launch contents of the features and the
  weights, and touches neither the edge list nor the two vectors.
-/
import proofs.«161642_j10007273799959_1_alg».proof.Proof.KernelRun
import proofs.«161642_j10007273799959_1_alg».proof.Proof.Between
import proofs.«161642_j10007273799959_1_alg».proof.Proof.ProductRegion
import proofs.«161642_j10007273799959_1_alg».proof.Proof.SlopeRegion

noncomputable section

namespace Cert.KernelIdeal.Layer

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)
variable (hb1 : Cert.GraphConv.SC.BroadcastsInDim Cert.GraphConv.SR (![1] : Fin 1 → Fin Cert.GraphConv.SR.rank))
  (hb2 : Cert.GraphConv.SR.BroadcastsInDim Cert.GraphConv.SNF (![0, 1] : Fin 2 → Fin Cert.GraphConv.SNF.rank))

/-- The layer of the launch contents of the five arguments on core c. -/
def layer (c : Dev nD) : FVec Ideal Cert.GraphConv.SNF .f32 :=
  Cert.GraphConv.biasSlope Between.conds hb1 hb2
    (Cert.GraphConv.aggregate Between.conds scatter_S100000_S1700000x1_S1700000_n_0_0_1 gather_S100000_S1700000x1_S1700000_n_0_n_n_0_1_1
      gather_S100000x128_S1700000x1_S1700000x128_1_0_n_n_0_1_1128 scatter_S100000x128_S1700000x1_S1700000x128_1_0_0_1
      (Cert.GraphConv.matProd (m ((c.tc : Thread nD τ).loc main_arg0)) (m ((c.tc : Thread nD τ).loc main_arg2)))
      (m ((c.tc : Thread nD τ).loc main_arg1)))
    (m ((c.tc : Thread nD τ).loc main_arg3)) (m ((c.tc : Thread nD τ).loc main_arg4))

/-- The first kernel leaves the product of the features and the weights as launched. -/
theorem product_eq (c : Dev nD) :
    W1 m ρ c (Proc.devRef .tc main_v0)
      = Cert.GraphConv.matProd (m ((c.tc : Thread nD τ).loc main_arg0)) (m ((c.tc : Thread nD τ).loc main_arg2)) :=
  (W1_arr m ρ c 2).trans (ProductRegion.result_eq (V0 m ρ) c)

/-- The second kernel finds the aggregation of that product over the edge list as launched. -/
theorem aggregate_eq (c : Dev nD) :
    V4 m ρ c main_v43
      = Cert.GraphConv.aggregate Between.conds scatter_S100000_S1700000x1_S1700000_n_0_0_1 gather_S100000_S1700000x1_S1700000_n_0_n_n_0_1_1
          gather_S100000x128_S1700000x1_S1700000x128_1_0_n_n_0_1_1128 scatter_S100000x128_S1700000x1_S1700000x128_1_0_0_1
          (Cert.GraphConv.matProd (m ((c.tc : Thread nD τ).loc main_arg0)) (m ((c.tc : Thread nD τ).loc main_arg2)))
          (m ((c.tc : Thread nD τ).loc main_arg1)) := by
  refine (Between.aggregate_eq (W1 m ρ c)).trans ?_
  rw [product_eq m ρ c, W1_of_ne m ρ c main_arg1 (by decide)]

/-- … and the bias and the slope as launched, laid out as rows. -/
theorem biasRow_eq (c : Dev nD) :
    V4 m ρ c main_v44 = shapeCast S1x128 (m ((c.tc : Thread nD τ).loc main_arg3)) shapeCasts_S128_S1x128 := by
  refine (Between.biasRow_eq (W1 m ρ c)).trans ?_
  rw [W1_of_ne m ρ c main_arg3 (by decide)]

theorem slopeRow_eq (c : Dev nD) :
    V4 m ρ c main_v45 = shapeCast S1x128 (m ((c.tc : Thread nD τ).loc main_arg4)) shapeCasts_S128_S1x128 := by
  refine (Between.slopeRow_eq (W1 m ρ c)).trans ?_
  rw [W1_of_ne m ρ c main_arg4 (by decide)]

/-- The result buffer at the last boundary is the layer. -/
theorem result_eq (c : Dev nD) : W5 m ρ c (Proc.devRef .tc main_v46) = layer m hb1 hb2 c := by
  refine (W5_arr m ρ c 3).trans ?_
  rw [SlopeRegion.result_eq (V4 m ρ) Between.conds hb1 hb2 c _ _ (biasRow_eq m ρ c) (slopeRow_eq m ρ c), aggregate_eq m ρ c]
  rfl

/-- Every run of the kernel's program ends with the layer in its result buffer and its arguments as launched. -/
theorem run : θ_run defs (onTc (τ := τ) (main (F := Ideal))) ⟨m, fun _ => 0, ρ⟩ (fun r => ∀ c : Dev nD,
      r.2.mem ((c.tc : Thread nD τ).loc main_v46) = layer m hb1 hb2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ hb1 hb2 c), (h c).2⟩) (Run.run_result m ρ)

end Cert.KernelIdeal.Layer

end
-- ==== Proof.RefValue.lean ====
/-
  The reference computes the graph convolution layer: the result of its run, as composed from its host operations, is
  the bias and slope applied to the aggregation of the matrix product of the node features with the weights.
-/
import proofs.«161642_j10007273799959_1_alg».proof.Proof.RefRunPatched
import proofs.«161642_j10007273799959_1_alg».proof.Proof.GraphConv

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The side conditions of the layer's layout operations, as the reference states them. -/
theorem conds : Cert.GraphConv.Conds :=
  ⟨slices_S2x1600000_S1x1600000_0_0, slices_S2x1600000_S1x1600000_1_0, shapeCasts_S1x1600000_S1600000,
    concatenates_S1600000_S100000_S1700000_d0, bcast_S_S1700000, bcast_S_S100000, bcast_S1700000_S1700000x1_0,
    bcast_S1700000x1_S1700000x128_0_1, bcast_S_S100000x128⟩

/-- The reference's result is the layer's function of its matrix product and the edge list. -/
theorem res_eq (m : (ℓ : Loc nD τ sig) → Buf (Elt F) ℓ) (c : Dev nD) :
    Cert.ReferenceIdeal.RunP.res_main_v52 m c
      = Cert.GraphConv.biasSlope conds bcast_S128_S1x128_1 bcast_S1x128_S100000x128_0_1
          (Cert.GraphConv.aggregate conds scatter_S100000_S1700000x1_S1700000_n_0_0_1 gather_S100000_S1700000x1_S1700000_n_0_n_n_0_1_1
            gather_S100000x128_S1700000x1_S1700000x128_1_0_n_n_0_1_1128 scatter_S100000x128_S1700000x1_S1700000x128_1_0_0_1
            (Host.dotGeneral dot_S100000x256_S256x128_S100000x128_1_0_0_1_n_n none (m ((c.tc : Thread nD τ).loc main_arg0)) (m ((c.tc : Thread nD τ).loc main_arg2)))
            (m ((c.tc : Thread nD τ).loc main_arg1)))
          (m ((c.tc : Thread nD τ).loc main_arg3)) (m ((c.tc : Thread nD τ).loc main_arg4)) := by
  unfold Cert.ReferenceIdeal.RunP.res_main_v52
  rfl

end Cert.ReferenceIdeal.RefValue

end
-- ==== Proof.lean ====
/-
  The kernel's program and its reference compute the same graph convolution layer.

  Both multiply the node features by the weights, aggregate the product's rows along the edges (with a loop at every
  node) under the symmetric degree weights, add a per-channel bias and apply a rectifier with a per-channel slope. The
  kernel's program does the product and the last step in two kernels, 5000 nodes at a time, and the aggregation on the
  host; the reference does everything on the host, operation for operation the same between the product and the bias.
  On the extended reals the two products are the same sum over the 256 input features (the kernel's narrowing of its
  operands to a shorter float format is the identity there), and the two last steps are the same function entry by
  entry; no law of the extended reals beyond that is used, so the inputs' finiteness is never opened.

  The three frames: the kernel's programs by their generated frames, the reference by its run with the result dropped.
  The idealization rewrote nothing, so there is nothing to preserve.
-/
import proofs.«161642_j10007273799959_1_alg».proof.Defs
import proofs.«161642_j10007273799959_1_alg».proof.Proof.Gen.Kernel
import proofs.«161642_j10007273799959_1_alg».proof.Proof.Gen.Kernel.Frame
import proofs.«161642_j10007273799959_1_alg».proof.Proof.Gen.KernelIdeal
import proofs.«161642_j10007273799959_1_alg».proof.Proof.Gen.KernelIdeal.Frame
import proofs.«161642_j10007273799959_1_alg».proof.Proof.Gen.ReferenceIdeal
import proofs.«161642_j10007273799959_1_alg».proof.Proof.Gen.Pre_finite_inputs
import proofs.«161642_j10007273799959_1_alg».proof.Proof.Layer
import proofs.«161642_j10007273799959_1_alg».proof.Proof.RefValue
import proofs.«161642_j10007273799959_1_alg».proof.Proof.MatProd
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.RunP.run (F := Ideal) m ρ)

/-- From memories that agree on the five arguments the two runs end with the same layer in their result buffers: the
    kernel's by its run read back through its five stretches, the reference's by its composed term, whose product is the
    same sum and whose other operations are the same terms. -/
theorem algebraic : Cert.algebraic_KernelIdeal_ReferenceIdeal := by
  intro m ρ m' ρ' _ hagree
  refine ⟨fun c => Cert.KernelIdeal.Layer.layer m Cert.ReferenceIdeal.Gen.bcast_S128_S1x128_1 Cert.ReferenceIdeal.Gen.bcast_S1x128_S100000x128_0_1 c,
    Cert.KernelIdeal.Layer.run m ρ _ _, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.res_eq, (hagree c).1, (hagree c).2.1, (hagree c).2.2.1, (hagree c).2.2.2.1, (hagree c).2.2.2.2,
    Cert.GraphConv.hostProduct_eq Cert.ReferenceIdeal.dot_S100000x256_S256x128_S100000x128_1_0_0_1_n_n rfl]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
